-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x64 : Shape := ⟨2, ![100000, 64]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S100000x64, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S1700000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .i1⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The computation both programs perform, written once as whole-array functions.

  A graph on 100000 nodes is given by 1600000 directed edges (row 0 of the edge list holds each edge's source, row 1 its
  target) with one weight per edge. Every node gets a self-loop of weight 1, so the working edge list has 1700000 entries.
  With deg(v) the sum of the weights of the edges that END in v, and d(v) = deg(v)^(-1/2) where deg(v) > 0 and 0 elsewhere,
  edge e from s to t carries the coefficient d(s) · w(e) · d(t). One layer maps node features h (64 per node) to

      out(v) = b + Σ over edges e that end in v of  coefficient(e) · h(source of e),

  and the whole function is  layer₂ ∘ linear₂ ∘ relu ∘ layer₁ ∘ linear₁  with the SAME edges and coefficients in both
  layers. The two linear maps are parameters here: one program computes them block by block, the other in one product,
  and the rest of the computation never looks inside them.
-/
import proofs.«147501_j3109556322453_1_alg».proof.Proof.Gen.KernelIdeal
import Idealize.ShloMosaic.Lib.ValueIdx

noncomputable section

namespace Cert.KernelIdeal.Gcn

open Idealize.ShloMosaic Idealize.SL.Sem
open Cert.KernelIdeal.Facts₀ Cert.KernelIdeal.Facts

variable {F : FTy → Type} [FloatOps F]

/-- An endpoint row of the edge list with the self-loops' endpoints 0, 1, …, 99999 appended. -/
def withLoops (v : (⟨S1600000, .i32⟩ : BufTy).Contents (Elt F)) : (⟨S1700000, .i32⟩ : BufTy).Contents (Elt F) :=
  concatenate S1700000 0 [⟨S1600000, v⟩, ⟨S100000, iotaInDim S100000 32 0⟩] concatenates_S1600000_S100000_S1700000_d0

/-- The sources of the 1700000 working edges: row 0 of the edge list, flattened, then the self-loops. -/
def sources (e : (⟨S2x1600000, .i32⟩ : BufTy).Contents (Elt F)) : (⟨S1700000, .i32⟩ : BufTy).Contents (Elt F) :=
  withLoops (shapeCast _ (extractStridedSlice S1x1600000 ![0, 0] e slices_S2x1600000_S1x1600000_0_0) shapeCasts_S1x1600000_S1600000)

/-- Their targets: row 1 of the edge list, flattened, then the self-loops. -/
def targets (e : (⟨S2x1600000, .i32⟩ : BufTy).Contents (Elt F)) : (⟨S1700000, .i32⟩ : BufTy).Contents (Elt F) :=
  withLoops (shapeCast _ (extractStridedSlice S1x1600000 ![1, 0] e slices_S2x1600000_S1x1600000_1_0) shapeCasts_S1x1600000_S1600000)

/-- Their weights: the given ones, then 1 for each self-loop. -/
def weights (w : (⟨S1600000, .f32⟩ : BufTy).Contents (Elt F)) : (⟨S1700000, .f32⟩ : BufTy).Contents (Elt F) :=
  concatenate S1700000 0 [⟨S1600000, w⟩, ⟨S100000, broadcastInDim S100000 ![] bcast_S_S100000 (constant S_ .f32 0x3F800000#32)⟩] concatenates_S1600000_S100000_S1700000_d0

/-- A list of node numbers as one column of indices. -/
def column (i : (⟨S1700000, .i32⟩ : BufTy).Contents (Elt F)) : (⟨S1700000x1, .i32⟩ : BufTy).Contents (Elt F) :=
  broadcastInDim S1700000x1 ![0] bcast_S1700000_S1700000x1_0 i

/-- The same column with a negative node number n read as n + 100000 (counting from the end). -/
def wrapped (i : (⟨S1700000, .i32⟩ : BufTy).Contents (Elt F)) : (⟨S1700000x1, .i32⟩ : BufTy).Contents (Elt F) :=
  column (select (cmpi .slt i (broadcastInDim S1700000 ![] bcast_S_S1700000 (constantI S_ 32 0#32)))
    (addi i (broadcastInDim S1700000 ![] bcast_S_S1700000 (constantI S_ 32 100000#32))) i)

/-- deg(v): the weights of the edges ending in v, summed. -/
def degree (dst : (⟨S1700000, .i32⟩ : BufTy).Contents (Elt F)) (ew : (⟨S1700000, .f32⟩ : BufTy).Contents (Elt F)) :
    (⟨S100000, .f32⟩ : BufTy).Contents (Elt F) :=
  Host.scatterAdd scatter_S100000_S1700000x1_S1700000_n_0_0_1
    (broadcastInDim S100000 ![] bcast_S_S100000 (constant S_ .f32 0x00000000#32)) (column dst) ew

/-- d(v) = deg(v)^(-1/2) where deg(v) > 0, and 0 elsewhere. -/
def invSqrt (d : (⟨S100000, .f32⟩ : BufTy).Contents (Elt F)) : (⟨S100000, .f32⟩ : BufTy).Contents (Elt F) :=
  select (cmpf .ogt d (broadcastInDim S100000 ![] bcast_S_S100000 (constant S_ .f32 0x00000000#32))) (Host.rsqrt d)
    (broadcastInDim S100000 ![] bcast_S_S100000 (id (constant S_ .f32 0x00000000#32)))

/-- The coefficient of each edge: d(source) · weight · d(target). -/
def coefficients (src dst : (⟨S1700000, .i32⟩ : BufTy).Contents (Elt F)) (ew : (⟨S1700000, .f32⟩ : BufTy).Contents (Elt F)) :
    (⟨S1700000, .f32⟩ : BufTy).Contents (Elt F) :=
  mulf (mulf (Host.gather gather_S100000_S1700000x1_S1700000_n_0_n_n_0_1_1 (invSqrt (degree dst ew)) (wrapped src)) ew)
    (Host.gather gather_S100000_S1700000x1_S1700000_n_0_n_n_0_1_1 (invSqrt (degree dst ew)) (wrapped dst))

/-- One layer's aggregation: every edge sends its source's 64 features, scaled by the edge's coefficient, to its target,
    where they are summed; the bias row is added to every node. -/
def aggregate (h : (⟨S100000x64, .f32⟩ : BufTy).Contents (Elt F)) (src dst : (⟨S1700000, .i32⟩ : BufTy).Contents (Elt F))
    (coef : (⟨S1700000, .f32⟩ : BufTy).Contents (Elt F)) (b : (⟨S64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32)) (column dst)
      (mulf (Host.gather gather_S100000x64_S1700000x1_S1700000x64_1_0_n_n_0_1_164 h (wrapped src))
        (broadcastInDim S1700000x64 ![0, 1] bcast_S1700000x1_S1700000x64_0_1
          (broadcastInDim S1700000x1 ![0] bcast_S1700000_S1700000x1_0 coef))))
    (broadcastInDim S100000x64 ![0, 1] bcast_S1x64_S100000x64_0_1 (broadcastInDim S1x64 ![1] bcast_S64_S1x64_1 b))

/-- max(h, 0), entry by entry. -/
def relu (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The whole function, over its two linear maps. -/
def twoLayers
    (lin₁ : (⟨S100000x256, .f32⟩ : BufTy).Contents (Elt F) → (⟨S256x64, .f32⟩ : BufTy).Contents (Elt F) → (⟨S100000x64, .f32⟩ : BufTy).Contents (Elt F))
    (lin₂ : (⟨S100000x64, .f32⟩ : BufTy).Contents (Elt F) → (⟨S64x64, .f32⟩ : BufTy).Contents (Elt F) → (⟨S100000x64, .f32⟩ : BufTy).Contents (Elt F))
    (x : (⟨S100000x256, .f32⟩ : BufTy).Contents (Elt F)) (e : (⟨S2x1600000, .i32⟩ : BufTy).Contents (Elt F))
    (w : (⟨S1600000, .f32⟩ : BufTy).Contents (Elt F)) (W₁ : (⟨S256x64, .f32⟩ : BufTy).Contents (Elt F))
    (b₁ : (⟨S64, .f32⟩ : BufTy).Contents (Elt F)) (W₂ : (⟨S64x64, .f32⟩ : BufTy).Contents (Elt F))
    (b₂ : (⟨S64, .f32⟩ : BufTy).Contents (Elt F)) : (⟨S100000x64, .f32⟩ : BufTy).Contents (Elt F) :=
  aggregate (lin₂ (relu (aggregate (lin₁ x W₁) (sources e) (targets e) (coefficients (sources e) (targets e) (weights w)) b₁)) W₂)
    (sources e) (targets e) (coefficients (sources e) (targets e) (weights w)) b₂

/-- Rows against columns over the extended reals: entry (r, c) is Σₖ x(r, k) · w(k, c). -/
def rowsByCols {R K C : ℕ} (x : (⟨2, ![R, K]⟩ : Shape).Idx → EReal) (w : (⟨2, ![K, C]⟩ : Shape).Idx → EReal) :
    (⟨2, ![R, C]⟩ : Shape).Idx → EReal :=
  fun i => ∑ k : Fin K, x (ValueIdx.ix2 (i 0) k) * w (ValueIdx.ix2 k (i 1))

/-- The first layer's linear map at the extended reals: features [100000, 256] against weights [256, 64]. -/
def linear₁ (x : (⟨S100000x256, .f32⟩ : BufTy).Contents (Elt Ideal)) (w : (⟨S256x64, .f32⟩ : BufTy).Contents (Elt Ideal)) :
    (⟨S100000x64, .f32⟩ : BufTy).Contents (Elt Ideal) :=
  rowsByCols (R := 100000) (K := 256) (C := 64) x w

/-- The second layer's: features [100000, 64] against weights [64, 64]. -/
def linear₂ (x : (⟨S100000x64, .f32⟩ : BufTy).Contents (Elt Ideal)) (w : (⟨S64x64, .f32⟩ : BufTy).Contents (Elt Ideal)) :
    (⟨S100000x64, .f32⟩ : BufTy).Contents (Elt Ideal) :=
  rowsByCols (R := 100000) (K := 64) (C := 64) x w

end Cert.KernelIdeal.Gcn

end
-- ==== Proof.Linear1.lean ====
/-
  The first layer's linear map, computed block by block, is the whole product.

  The rows of the feature matrix x [100000, 256] are cut into 20 blocks of 5000. Grid point t reads block t of x and all of
  W [256, 64], multiplies them (the narrowing of both factors to bf16 is the identity over the extended reals, and the
  accumulator starts at zero, so entry (p, q) of the block product is Σₖ x(5000·t + p, k) · W(k, q)), and writes the result
  as block t of the output [100000, 64]. Row r of the output therefore belongs to point r / 5000, the 20 blocks cover the
  output, and the output ends holding Σₖ x(r, k) · W(k, c) at every (r, c).
-/
import proofs.«147501_j3109556322453_1_alg».proof.Proof.Gen.KernelIdeal.Frame
import proofs.«147501_j3109556322453_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear₁

open Idealize.ShloMosaic Idealize.ShloMosaic.TcCoe Idealize.SL.Sem
open Cert.KernelIdeal Cert.KernelIdeal.Gen Cert.KernelIdeal.Gcn
open Idealize.ShloMosaic.Pipeline (Dat Cfg Window)
open Cert.KernelIdeal.Facts₀ Cert.KernelIdeal.Facts

/-! ## The block product at an index -/

/-- The left factor's row coordinate is the output's row. -/
theorem lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Its column coordinate is the summation index. -/
theorem lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right factor's row coordinate is the summation index. -/
theorem rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Its column coordinate is the output's column. -/
theorem rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry i of the block product of a [5000, 256] block and the [256, 64] weights: Σₖ x(i₀, k) · w(k, i₁). Narrowing a
    factor to bf16 changes nothing over the extended reals, and the accumulator is the zero matrix. -/
theorem blockProduct_apply (x0 : Vec Ideal S5000x256 .f32) (x1 : Vec Ideal S256x64 .f32) (i : S5000x64.Idx) :
    k0_pay1 (F := Ideal) x0 x1 i = ∑ k : Fin 256, x0 (ValueIdx.ix2 (i 0) k) * x1 (ValueIdx.ix2 k (i 1)) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx i ((ValueIdx.contrEquiv1 dot_S5000x256_S256x64_S5000x64_1_0_0_1_n_n 256 rfl rfl).symm k) = ValueIdx.ix2 (i 0) k := funext fun a => Fin.ext (by
    match a with
    | ⟨0, _⟩ => exact lhs_0 _ _
    | ⟨1, _⟩ => exact (lhs_1 _ _).trans hk)
  have er : dot_S5000x256_S256x64_S5000x64_1_0_0_1_n_n.rhsIdx i ((ValueIdx.contrEquiv1 dot_S5000x256_S256x64_S5000x64_1_0_0_1_n_n 256 rfl rfl).symm k) = ValueIdx.ix2 k (i 1) := funext fun a => Fin.ext (by
    match a with
    | ⟨0, _⟩ => exact (rhs_0 _ _).trans hk
    | ⟨1, _⟩ => exact rhs_1 _ _)
  rw [ValueIdx.truncf_apply, ValueIdx.truncf_apply, el, er]
  rfl

/-! ## From blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- Where the blocks sit: at point t the feature block and the output block are block t along the rows, and the weights
    are read whole. -/
theorem blockPositions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 (F := Ideal) V c).flushed 2 t
      = ((cfg0.win 2).blk t).view.read (Elt Ideal) (linear₁ (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x64) zeroOffsets]
  funext j
  show k0_pay1 (F := Ideal) (iblk0 V c 0 t) (iblk0 V c 1 t) j
    = linear₁ (V c main_arg0) (V c main_arg3) (((cfg0.win 2).blk t).view.emb j)
  refine (blockProduct_apply (iblk0 V c 0 t) (iblk0 V c 1 t) j).trans ?_
  obtain ⟨e0, e1, e2, e3, e4, e5⟩ := blockPositions t
  unfold linear₁ rowsByCols
  refine Finset.sum_congr rfl fun k _ => ?_
  have hx : iblk0 V c 0 t (ValueIdx.ix2 (j 0) k)
      = V c main_arg0 (ValueIdx.ix2 ((((cfg0.win 2).blk t).view.emb j) 0) k) := by
    show V c main_arg0 (((cfg0.win 0).blk t).view.emb (ValueIdx.ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : iblk0 V c 1 t (ValueIdx.ix2 k (j 1))
      = V c main_arg3 (ValueIdx.ix2 k ((((cfg0.win 2).blk t).view.emb j) 1)) := by
    show V c main_arg3 (((cfg0.win 1).blk t).view.emb (ValueIdx.ix2 k (j 1))) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [hx, hw]

/-- An index of the output lies in point t's block iff each coordinate lies in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r of the output is in the block of point r / 5000. -/
theorem covered (i : S100000x64.Idx) :
    ∃ t : Fin cfg0.N, (cfg0.win 2).flush t = true ∧ i ∈ ((cfg0.win 2).blk t).view.set := by
  have hN : grid0.N = 20 := N_0
  have hN' : cfg0.N = 20 := N_0
  have hi0 : (i 0).val < 100000 := (i 0).isLt
  have hi1 : (i 1).val < 64 := (i 1).isLt
  refine ⟨⟨(i 0).val / 5000, by omega⟩, flush0_2 _, ?_⟩
  rw [mem_block]
  obtain ⟨-, -, -, -, e4, e5⟩ := blockPositions ⟨(i 0).val / 5000, by omega⟩
  have e4' : win0_2.index ⟨(i 0).val / 5000, by omega⟩ (0 : Fin 2) = (i 0).val / 5000 := e4
  intro a
  match a with
  | ⟨0, _⟩ => show win0_2.index ⟨(i 0).val / 5000, by omega⟩ (0 : Fin 2) * 5000 ≤ (i 0).val ∧ (i 0).val < win0_2.index ⟨(i 0).val / 5000, by omega⟩ (0 : Fin 2) * 5000 + 5000; omega
  | ⟨1, _⟩ => show win0_2.index ⟨(i 0).val / 5000, by omega⟩ (1 : Fin 2) * 64 ≤ (i 1).val ∧ (i 1).val < win0_2.index ⟨(i 0).val / 5000, by omega⟩ (1 : Fin 2) * 64 + 64; omega

/-- The output array after the region: the whole product of the feature matrix and the weights as the region finds them. -/
theorem array_eq (c : Dev nD) :
    (dat0 (F := Ideal) V c).arrAt 2 cfg0.N = linear₁ (V c main_arg0) (V c main_arg3) :=
  (dat0 V c).arrAt_eq_of_cover 2 (linear₁ (V c main_arg0) (V c main_arg3)) (fun t _ => flushed_eq V c t) covered

end Cert.KernelIdeal.Linear₁

end
-- ==== Proof.Linear2.lean ====
/-
  The second layer's linear map, computed block by block, is the whole product.

  The rows of the hidden features h [100000, 64] are cut into 20 blocks of 5000. Grid point t reads block t of h and all of
  W [64, 64] and writes their product (the narrowing of both factors to bf16 is the identity over the extended reals, the
  re-typing of the block to its own shape moves nothing, and the accumulator starts at zero, so entry (p, q) is
  Σₖ h(5000·t + p, k) · W(k, q)) as block t of the output [100000, 64]. Row r of the output belongs to point r / 5000, the
  20 blocks cover the output, and the output ends holding Σₖ h(r, k) · W(k, c) at every (r, c).
-/
import proofs.«147501_j3109556322453_1_alg».proof.Proof.Gen.KernelIdeal.Frame
import proofs.«147501_j3109556322453_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear₂

open Idealize.ShloMosaic Idealize.ShloMosaic.TcCoe Idealize.SL.Sem
open Cert.KernelIdeal Cert.KernelIdeal.Gen Cert.KernelIdeal.Gcn
open Idealize.ShloMosaic.Pipeline (Dat Cfg Window)
open Cert.KernelIdeal.Facts₀ Cert.KernelIdeal.Facts

/-! ## The block product at an index -/

/-- The left factor's row coordinate is the output's row. -/
theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Its column coordinate is the summation index. -/
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row coordinate is the summation index. -/
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Its column coordinate is the output's column. -/
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry i of the block product of a [5000, 64] block and the [64, 64] weights: Σₖ x(i₀, k) · w(k, i₁). Narrowing a
    factor to bf16 changes nothing over the extended reals, re-typing the block to its own shape is the identity, and the
    accumulator is the zero matrix. -/
theorem blockProduct_apply (x0 : Vec Ideal S5000x64 .f32) (x1 : Vec Ideal S64x64 .f32) (i : S5000x64.Idx) :
    k1_pay1 (F := Ideal) x0 x1 i = ∑ k : Fin 64, x0 (ValueIdx.ix2 (i 0) k) * x1 (ValueIdx.ix2 k (i 1)) := by
  unfold k1_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = ValueIdx.ix2 (i 0) k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = ValueIdx.ix2 k (i 1) := funext fun a => Fin.ext (by
    match a with
    | ⟨0, _⟩ => exact (rhs_0 _ _).trans hk
    | ⟨1, _⟩ => exact rhs_1 _ _)
  rw [ValueIdx.truncf_apply, ValueIdx.truncf_apply, shapeCast_self, el, er]
  rfl

/-! ## From blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- Where the blocks sit: at point t the hidden-feature block and the output block are block t along the rows, and the
    weights are read whole. -/
theorem blockPositions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the region finds. -/
theorem flushed_eq (c : Dev nD) (t : Fin cfg1.N) :
    (dat1 (F := Ideal) V c).flushed 2 t
      = ((cfg1.win 2).blk t).view.read (Elt Ideal) (linear₂ (V c main_v49) (V c main_arg5)) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S64x64) zeroOffsets]
  funext j
  show k1_pay1 (F := Ideal) (iblk1 V c 0 t) (iblk1 V c 1 t) j
    = linear₂ (V c main_v49) (V c main_arg5) (((cfg1.win 2).blk t).view.emb j)
  refine (blockProduct_apply (iblk1 V c 0 t) (iblk1 V c 1 t) j).trans ?_
  obtain ⟨e0, e1, e2, e3, e4, e5⟩ := blockPositions t
  unfold linear₂ rowsByCols
  refine Finset.sum_congr rfl fun k _ => ?_
  have hx : iblk1 V c 0 t (ValueIdx.ix2 (j 0) k)
      = V c main_v49 (ValueIdx.ix2 ((((cfg1.win 2).blk t).view.emb j) 0) k) := by
    show V c main_v49 (((cfg1.win 0).blk t).view.emb (ValueIdx.ix2 (j 0) k)) = _
    refine congrArg (V c main_v49) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have hw : iblk1 V c 1 t (ValueIdx.ix2 k (j 1))
      = V c main_arg5 (ValueIdx.ix2 k ((((cfg1.win 2).blk t).view.emb j) 1)) := by
    show V c main_arg5 (((cfg1.win 1).blk t).view.emb (ValueIdx.ix2 k (j 1))) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  rw [hx, hw]

/-- An index of the output lies in point t's block iff each coordinate lies in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- Row r of the output is in the block of point r / 5000. -/
theorem covered (i : S100000x64.Idx) :
    ∃ t : Fin cfg1.N, (cfg1.win 2).flush t = true ∧ i ∈ ((cfg1.win 2).blk t).view.set := by
  have hN : grid1.N = 20 := N_1
  have hN' : cfg1.N = 20 := N_1
  have hi0 : (i 0).val < 100000 := (i 0).isLt
  have hi1 : (i 1).val < 64 := (i 1).isLt
  refine ⟨⟨(i 0).val / 5000, by omega⟩, flush1_2 _, ?_⟩
  rw [mem_block]
  obtain ⟨-, -, -, -, e4, e5⟩ := blockPositions ⟨(i 0).val / 5000, by omega⟩
  have e4' : win1_2.index ⟨(i 0).val / 5000, by omega⟩ (0 : Fin 2) = (i 0).val / 5000 := e4
  intro a
  match a with
  | ⟨0, _⟩ => show win1_2.index ⟨(i 0).val / 5000, by omega⟩ (0 : Fin 2) * 5000 ≤ (i 0).val ∧ (i 0).val < win1_2.index ⟨(i 0).val / 5000, by omega⟩ (0 : Fin 2) * 5000 + 5000; omega
  | ⟨1, _⟩ => show win1_2.index ⟨(i 0).val / 5000, by omega⟩ (1 : Fin 2) * 64 ≤ (i 1).val ∧ (i 1).val < win1_2.index ⟨(i 0).val / 5000, by omega⟩ (1 : Fin 2) * 64 + 64; omega

/-- The output array after the region: the whole product of the hidden features and the weights as the region finds them. -/
theorem array_eq (c : Dev nD) :
    (dat1 (F := Ideal) V c).arrAt 2 cfg1.N = linear₂ (V c main_v49) (V c main_arg5) :=
  (dat1 V c).arrAt_eq_of_cover 2 (linear₂ (V c main_v49) (V c main_arg5)) (fun t _ => flushed_eq V c t) covered

end Cert.KernelIdeal.Linear₂

end
-- ==== Proof.Walk.lean ====
/-
  What the idealized kernel program leaves in its result buffer, as a function of its arguments.

  The program is three stretches of host operations around two grid regions. Before the first region the host builds
  the working edge list (sources, targets, weights: the given edges and one self-loop per node) and each edge's
  coefficient d(source) · weight · d(target). The first region writes the first linear map of the features. The host
  then aggregates along the edges, adds the bias and takes max(·, 0). The second region writes the second linear map of
  that, and the last stretch aggregates along the same edges with the same coefficients and adds the second bias.
  Each step below names what ONE buffer holds at ONE boundary; a buffer nobody writes in between keeps its contents.
  What the host stretches do is the same at every reading of the floats, so those steps are stated for any; only the two
  regions' products are read over the extended reals.
-/
import proofs.«147501_j3109556322453_1_alg».proof.Proof.Gen.KernelIdeal.Frame
import proofs.«147501_j3109556322453_1_alg».proof.Proof.Spec
import proofs.«147501_j3109556322453_1_alg».proof.Proof.Linear1
import proofs.«147501_j3109556322453_1_alg».proof.Proof.Linear2
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen Cert.KernelIdeal.Gcn
open Idealize.ShloMosaic.StableHlo
open Cert.KernelIdeal.Facts₀ Cert.KernelIdeal.Facts

/-! # The host stretches, at any reading of the floats -/

section Host

variable {F : FTy → Type} [FloatOps F]
variable (m : (ℓ : Loc nD τ sig) → Buf (Elt F) ℓ) (ρ : Dev nD → PrngReg)

/-- The argument arrays as launched, by what they are: node features, edge list, edge weights, and each layer's weights and bias. -/
abbrev feat (c : Dev nD) := m ((c.tc : Thread nD τ).loc main_arg0)
abbrev edges (c : Dev nD) := m ((c.tc : Thread nD τ).loc main_arg1)
abbrev edgeW (c : Dev nD) := m ((c.tc : Thread nD τ).loc main_arg2)
abbrev wts₁ (c : Dev nD) := m ((c.tc : Thread nD τ).loc main_arg3)
abbrev bias₁ (c : Dev nD) := m ((c.tc : Thread nD τ).loc main_arg4)
abbrev wts₂ (c : Dev nD) := m ((c.tc : Thread nD τ).loc main_arg5)
abbrev bias₂ (c : Dev nD) := m ((c.tc : Thread nD τ).loc main_arg6)

/-! ## At the first region's entry -/

theorem entry₁_sources (c : Dev nD) : W3 m ρ c (Proc.devRef .tc main_v3) = sources (edges m c) := by
  dsimp only [W3, W2, W1, hostOps0, hostOps0_1, hostOps0_2]
  after_results_simp <;> rfl
theorem entry₁_targets (c : Dev nD) : W3 m ρ c (Proc.devRef .tc main_v6) = targets (edges m c) := by
  dsimp only [W3, W2, W1, hostOps0, hostOps0_1, hostOps0_2]
  after_results_simp <;> rfl
theorem entry₁_coef (c : Dev nD) : W3 m ρ c (Proc.devRef .tc main_v31)
    = coefficients (sources (edges m c)) (targets (edges m c)) (weights (edgeW m c)) := by
  dsimp only [W3, W2, W1, hostOps0, hostOps0_1, hostOps0_2]
  after_results_simp <;> rfl
theorem entry₁_feat (c : Dev nD) : W3 m ρ c (Proc.devRef .tc main_arg0) = feat m c := by
  dsimp only [W3, W2, W1, hostOps0, hostOps0_1, hostOps0_2]
  after_results_simp <;> rfl
theorem entry₁_wts₁ (c : Dev nD) : W3 m ρ c (Proc.devRef .tc main_arg3) = wts₁ m c := by
  dsimp only [W3, W2, W1, hostOps0, hostOps0_1, hostOps0_2]
  after_results_simp <;> rfl
theorem entry₁_bias₁ (c : Dev nD) : W3 m ρ c (Proc.devRef .tc main_arg4) = bias₁ m c := by
  dsimp only [W3, W2, W1, hostOps0, hostOps0_1, hostOps0_2]
  after_results_simp <;> rfl
theorem entry₁_wts₂ (c : Dev nD) : W3 m ρ c (Proc.devRef .tc main_arg5) = wts₂ m c := by
  dsimp only [W3, W2, W1, hostOps0, hostOps0_1, hostOps0_2]
  after_results_simp <;> rfl
theorem entry₁_bias₂ (c : Dev nD) : W3 m ρ c (Proc.devRef .tc main_arg6) = bias₂ m c := by
  dsimp only [W3, W2, W1, hostOps0, hostOps0_1, hostOps0_2]
  after_results_simp <;> rfl

/-! ## Across the first region: only its output array changes -/

theorem exit₁_sources (c : Dev nD) : W4 m ρ c (Proc.devRef .tc main_v3) = sources (edges m c) :=
  (W4_of_ne m ρ c main_v3 (by decide)).trans (entry₁_sources m ρ c)
theorem exit₁_targets (c : Dev nD) : W4 m ρ c (Proc.devRef .tc main_v6) = targets (edges m c) :=
  (W4_of_ne m ρ c main_v6 (by decide)).trans (entry₁_targets m ρ c)
theorem exit₁_coef (c : Dev nD) : W4 m ρ c (Proc.devRef .tc main_v31)
    = coefficients (sources (edges m c)) (targets (edges m c)) (weights (edgeW m c)) :=
  (W4_of_ne m ρ c main_v31 (by decide)).trans (entry₁_coef m ρ c)
theorem exit₁_bias₁ (c : Dev nD) : W4 m ρ c (Proc.devRef .tc main_arg4) = bias₁ m c :=
  (W4_of_ne m ρ c main_arg4 (by decide)).trans (entry₁_bias₁ m ρ c)
theorem exit₁_wts₂ (c : Dev nD) : W4 m ρ c (Proc.devRef .tc main_arg5) = wts₂ m c :=
  (W4_of_ne m ρ c main_arg5 (by decide)).trans (entry₁_wts₂ m ρ c)
theorem exit₁_bias₂ (c : Dev nD) : W4 m ρ c (Proc.devRef .tc main_arg6) = bias₂ m c :=
  (W4_of_ne m ρ c main_arg6 (by decide)).trans (entry₁_bias₂ m ρ c)

/-! ## The stretch between the regions: aggregate, add the bias, clamp at zero; everything else is kept -/

theorem between_hidden (c : Dev nD) : W6 m ρ c (Proc.devRef .tc main_v49)
    = relu (aggregate (W4 m ρ c (Proc.devRef .tc main_v32)) (W4 m ρ c (Proc.devRef .tc main_v3)) (W4 m ρ c (Proc.devRef .tc main_v6))
        (W4 m ρ c (Proc.devRef .tc main_v31)) (W4 m ρ c (Proc.devRef .tc main_arg4))) := by
  dsimp only [W6, W5, hostOps1, hostOps1_1]
  after_results_simp <;> rfl
theorem between_sources (c : Dev nD) : W6 m ρ c (Proc.devRef .tc main_v3) = W4 m ρ c (Proc.devRef .tc main_v3) := by
  dsimp only [W6, W5, hostOps1, hostOps1_1]
  after_results_simp <;> rfl
theorem between_targets (c : Dev nD) : W6 m ρ c (Proc.devRef .tc main_v6) = W4 m ρ c (Proc.devRef .tc main_v6) := by
  dsimp only [W6, W5, hostOps1, hostOps1_1]
  after_results_simp <;> rfl
theorem between_coef (c : Dev nD) : W6 m ρ c (Proc.devRef .tc main_v31) = W4 m ρ c (Proc.devRef .tc main_v31) := by
  dsimp only [W6, W5, hostOps1, hostOps1_1]
  after_results_simp <;> rfl
theorem between_wts₂ (c : Dev nD) : W6 m ρ c (Proc.devRef .tc main_arg5) = W4 m ρ c (Proc.devRef .tc main_arg5) := by
  dsimp only [W6, W5, hostOps1, hostOps1_1]
  after_results_simp <;> rfl
theorem between_bias₂ (c : Dev nD) : W6 m ρ c (Proc.devRef .tc main_arg6) = W4 m ρ c (Proc.devRef .tc main_arg6) := by
  dsimp only [W6, W5, hostOps1, hostOps1_1]
  after_results_simp <;> rfl

/-! ## Across the second region, and the last stretch -/

theorem exit₂_sources (c : Dev nD) : W7 m ρ c (Proc.devRef .tc main_v3) = sources (edges m c) :=
  (W7_of_ne m ρ c main_v3 (by decide)).trans ((between_sources m ρ c).trans (exit₁_sources m ρ c))
theorem exit₂_targets (c : Dev nD) : W7 m ρ c (Proc.devRef .tc main_v6) = targets (edges m c) :=
  (W7_of_ne m ρ c main_v6 (by decide)).trans ((between_targets m ρ c).trans (exit₁_targets m ρ c))
theorem exit₂_coef (c : Dev nD) : W7 m ρ c (Proc.devRef .tc main_v31)
    = coefficients (sources (edges m c)) (targets (edges m c)) (weights (edgeW m c)) :=
  (W7_of_ne m ρ c main_v31 (by decide)).trans ((between_coef m ρ c).trans (exit₁_coef m ρ c))
theorem exit₂_bias₂ (c : Dev nD) : W7 m ρ c (Proc.devRef .tc main_arg6) = bias₂ m c :=
  (W7_of_ne m ρ c main_arg6 (by decide)).trans ((between_bias₂ m ρ c).trans (exit₁_bias₂ m ρ c))

theorem last_aggregate (c : Dev nD) : W8 m ρ c (Proc.devRef .tc main_v66)
    = aggregate (W7 m ρ c (Proc.devRef .tc main_v50)) (W7 m ρ c (Proc.devRef .tc main_v3)) (W7 m ρ c (Proc.devRef .tc main_v6))
        (W7 m ρ c (Proc.devRef .tc main_v31)) (W7 m ρ c (Proc.devRef .tc main_arg6)) := by
  dsimp only [W8, hostOps2]
  after_results_simp <;> rfl

end Host

/-- The two-layer function, one step unfolded. -/
theorem twoLayers_def {F : FTy → Type} [FloatOps F]
    (lin₁ : (⟨S100000x256, .f32⟩ : BufTy).Contents (Elt F) → (⟨S256x64, .f32⟩ : BufTy).Contents (Elt F) → (⟨S100000x64, .f32⟩ : BufTy).Contents (Elt F))
    (lin₂ : (⟨S100000x64, .f32⟩ : BufTy).Contents (Elt F) → (⟨S64x64, .f32⟩ : BufTy).Contents (Elt F) → (⟨S100000x64, .f32⟩ : BufTy).Contents (Elt F))
    (x : (⟨S100000x256, .f32⟩ : BufTy).Contents (Elt F)) (e : (⟨S2x1600000, .i32⟩ : BufTy).Contents (Elt F))
    (w : (⟨S1600000, .f32⟩ : BufTy).Contents (Elt F)) (W₁ : (⟨S256x64, .f32⟩ : BufTy).Contents (Elt F))
    (b₁ : (⟨S64, .f32⟩ : BufTy).Contents (Elt F)) (W₂ : (⟨S64x64, .f32⟩ : BufTy).Contents (Elt F))
    (b₂ : (⟨S64, .f32⟩ : BufTy).Contents (Elt F)) :
    twoLayers lin₁ lin₂ x e w W₁ b₁ W₂ b₂
      = aggregate (lin₂ (relu (aggregate (lin₁ x W₁) (sources e) (targets e) (coefficients (sources e) (targets e) (weights w)) b₁)) W₂)
          (sources e) (targets e) (coefficients (sources e) (targets e) (weights w)) b₂ := by
  unfold twoLayers
  rfl

/-! # Over the extended reals: the regions' outputs are the two linear maps -/

section Products

variable (m : (ℓ : Loc nD τ sig) → Buf (Elt Ideal) ℓ) (ρ : Dev nD → PrngReg)

/-- The first region's output is the first linear map of the launched features and weights. -/
theorem exit₁_linear (c : Dev nD) : W4 m ρ c (Proc.devRef .tc main_v32) = linear₁ (feat m c) (wts₁ m c) := by
  refine (W4_arr m ρ c 2).trans ?_
  rw [Linear₁.array_eq (V3 m ρ) c]
  show linear₁ (W3 m ρ c (Proc.devRef .tc main_arg0)) (W3 m ρ c (Proc.devRef .tc main_arg3)) = _
  rw [entry₁_feat, entry₁_wts₁]

/-- The hidden features: max(layer₁(linear₁ x), 0). -/
theorem entry₂_hidden (c : Dev nD) : W6 m ρ c (Proc.devRef .tc main_v49)
    = relu (aggregate (linear₁ (feat m c) (wts₁ m c)) (sources (edges m c)) (targets (edges m c))
        (coefficients (sources (edges m c)) (targets (edges m c)) (weights (edgeW m c))) (bias₁ m c)) := by
  rw [between_hidden, exit₁_linear, exit₁_sources, exit₁_targets, exit₁_coef, exit₁_bias₁]

/-- The second region's output is the second linear map of the hidden features. -/
theorem exit₂_linear (c : Dev nD) : W7 m ρ c (Proc.devRef .tc main_v50)
    = linear₂ (relu (aggregate (linear₁ (feat m c) (wts₁ m c)) (sources (edges m c)) (targets (edges m c))
        (coefficients (sources (edges m c)) (targets (edges m c)) (weights (edgeW m c))) (bias₁ m c))) (wts₂ m c) := by
  refine (W7_arr m ρ c 2).trans ?_
  rw [Linear₂.array_eq (V6 m ρ) c]
  show linear₂ (W6 m ρ c (Proc.devRef .tc main_v49)) (W6 m ρ c (Proc.devRef .tc main_arg5)) = _
  rw [entry₂_hidden, between_wts₂, exit₁_wts₂]

/-- After the last stretch the result buffer holds the two-layer function of the launch memory's arguments, its two
    linear maps the plain row-by-column sums. -/
theorem result_eq (c : Dev nD) : W8 m ρ c (Proc.devRef .tc main_v66)
    = twoLayers linear₁ linear₂ (feat m c) (edges m c) (edgeW m c) (wts₁ m c) (bias₁ m c) (wts₂ m c) (bias₂ m c) := by
  rw [last_aggregate, exit₂_linear, exit₂_sources, exit₂_targets, exit₂_coef, exit₂_bias₂, twoLayers_def]

end Products

end Cert.KernelIdeal.Walk

end
-- ==== Proof.RefValue.lean ====
/-
  What the idealized reference leaves in its result buffer, as the same function of its arguments.

  The reference is host operations only. Its result is the composition of its operations applied to the arguments, and
  that composition is, operation for operation, the two-layer function: the same edge list with self-loops, the same
  degrees and coefficients (it recomputes them for the second layer, from the same edges and weights, so it gets the
  same arrays), the same aggregation, bias and clamp, with each linear map one whole matrix product. Over the extended
  reals a whole product read at (r, c) is the plain sum Σₖ x(r, k) · w(k, c).
-/
import proofs.«147501_j3109556322453_1_alg».proof.Proof.Gen.ReferenceIdeal.Run
import proofs.«147501_j3109556322453_1_alg».proof.Proof.Gen.ReferenceIdeal.Read
import proofs.«147501_j3109556322453_1_alg».proof.Proof.Spec
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.ReferenceIdeal.Read
open Cert.KernelIdeal.Gcn
open Cert.ReferenceIdeal.Facts₀ Cert.ReferenceIdeal.Facts

/-- The first layer's whole product [100000, 256] × [256, 64], entry by entry, is the plain sum over the 256 shared indices. -/
theorem product₁_eq (x : (⟨S100000x256, .f32⟩ : BufTy).Contents (Elt Ideal)) (w : (⟨S256x64, .f32⟩ : BufTy).Contents (Elt Ideal)) :
    Host.dotGeneral (F := Ideal) (φ₁ := .f32) (φ₂ := .f32) dot_S100000x256_S256x64_S100000x64_1_0_0_1_n_n none x w = linear₁ x w := by
  funext i
  simp only [Host.dotGeneral]
  rw [Ideal.dotGeneral_apply, ← Equiv.sum_comp (ValueIdx.contrEquiv1 dot_S100000x256_S256x64_S100000x64_1_0_0_1_n_n 256 rfl rfl).symm]
  unfold linear₁ rowsByCols
  refine Finset.sum_congr rfl fun k _ => ?_
  have hk := ValueIdx.contrEquiv1_symm_val dot_S100000x256_S256x64_S100000x64_1_0_0_1_n_n 256 rfl rfl k
  have el : dot_S100000x256_S256x64_S100000x64_1_0_0_1_n_n.lhsIdx i ((ValueIdx.contrEquiv1 dot_S100000x256_S256x64_S100000x64_1_0_0_1_n_n 256 rfl rfl).symm k) = ValueIdx.ix2 (i 0) k := funext fun a => Fin.ext (by
    match a with
    | ⟨0, _⟩ => exact lhs_main_v9_0 _ _
    | ⟨1, _⟩ => exact (lhs_main_v9_1 _ _).trans hk)
  have er : dot_S100000x256_S256x64_S100000x64_1_0_0_1_n_n.rhsIdx i ((ValueIdx.contrEquiv1 dot_S100000x256_S256x64_S100000x64_1_0_0_1_n_n 256 rfl rfl).symm k) = ValueIdx.ix2 k (i 1) := funext fun a => Fin.ext (by
    match a with
    | ⟨0, _⟩ => exact (rhs_main_v9_0 _ _).trans hk
    | ⟨1, _⟩ => exact rhs_main_v9_1 _ _)
  rw [el, er]
  rfl

/-- The second layer's whole product [100000, 64] × [64, 64], entry by entry, is the plain sum over the 64 shared indices. -/
theorem product₂_eq (x : (⟨S100000x64, .f32⟩ : BufTy).Contents (Elt Ideal)) (w : (⟨S64x64, .f32⟩ : BufTy).Contents (Elt Ideal)) :
    Host.dotGeneral (F := Ideal) (φ₁ := .f32) (φ₂ := .f32) dot_S100000x64_S64x64_S100000x64_1_0_0_1_n_n none x w = linear₂ x w := by
  funext i
  simp only [Host.dotGeneral]
  rw [Ideal.dotGeneral_apply, ← Equiv.sum_comp (ValueIdx.contrEquiv1 dot_S100000x64_S64x64_S100000x64_1_0_0_1_n_n 64 rfl rfl).symm]
  unfold linear₂ rowsByCols
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ValueIdx.ix2 (i 0) k := funext fun a => Fin.ext (by
    match a with
    | ⟨0, _⟩ => exact lhs_main_v50_0 _ _
    | ⟨1, _⟩ => exact (lhs_main_v50_1 _ _).trans hk)
  have er : dot_S100000x64_S64x64_S100000x64_1_0_0_1_n_n.rhsIdx i ((ValueIdx.contrEquiv1 dot_S100000x64_S64x64_S100000x64_1_0_0_1_n_n 64 rfl rfl).symm k) = ValueIdx.ix2 k (i 1) := funext fun a => Fin.ext (by
    match a with
    | ⟨0, _⟩ => exact (rhs_main_v50_0 _ _).trans hk
    | ⟨1, _⟩ => exact rhs_main_v50_1 _ _)
  rw [el, er]
  rfl

variable (m : (ℓ : Loc nD τ sig) → Buf (Elt Ideal) ℓ)

/-- The reference's composed operations are the two-layer function with each linear map one whole product. -/
theorem composed_eq (c : Dev nD) : res_main_v89 (F := Ideal) m c
    = twoLayers (fun x w => Host.dotGeneral (F := Ideal) (φ₁ := .f32) (φ₂ := .f32) dot_S100000x256_S256x64_S100000x64_1_0_0_1_n_n none x w)
        (fun x w => Host.dotGeneral (F := Ideal) (φ₁ := .f32) (φ₂ := .f32) dot_S100000x64_S64x64_S100000x64_1_0_0_1_n_n none x w)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold res_main_v89
  rfl

/-- So the reference's result is the two-layer function over the plain row-by-column sums. -/
theorem result_eq (c : Dev nD) : res_main_v89 (F := Ideal) m c
    = twoLayers linear₁ linear₂
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [composed_eq]
  have h₁ : (fun x w => Host.dotGeneral (F := Ideal) (φ₁ := .f32) (φ₂ := .f32) dot_S100000x256_S256x64_S100000x64_1_0_0_1_n_n none x w) = linear₁ :=
    funext fun x => funext fun w => product₁_eq x w
  have h₂ : (fun x w => Host.dotGeneral (F := Ideal) (φ₁ := .f32) (φ₂ := .f32) dot_S100000x64_S64x64_S100000x64_1_0_0_1_n_n none x w) = linear₂ :=
    funext fun x => funext fun w => product₂_eq x w
  rw [h₁, h₂]

end Cert.ReferenceIdeal.RefValue

end
-- ==== Proof.lean ====
/-
  A two-layer graph convolution on 100000 nodes: the kernel program against its reference, over the extended reals.

  Both programs compute  layer₂(linear₂(max(layer₁(linear₁ x), 0)))  where a layer sends every edge's source features,
  scaled by d(source) · weight · d(target) with d = degree^(-1/2) (0 where the degree is not positive), to the edge's
  target, sums there and adds a bias; the edges are the given ones and a self-loop of weight 1 per node. They differ in
  two places only. The kernel program computes each linear map in a grid region, 5000 rows at a time, narrowing both
  factors to bf16 before the product; over the extended reals the narrowing is the identity and the 20 row blocks tile
  the output, so each region leaves the whole product Σₖ x(r, k) · W(k, c) (Linear1, Linear2), as the reference's one
  matrix product does (RefValue). And the reference computes the degrees and coefficients once per layer where the
  kernel program computes them once: the same operations on the same arrays. No law of the extended reals beyond
  reading the two products as the same finite sum is used, so the finiteness of the inputs is never opened.

  The idealized kernel's result buffer is followed from the launch through the host stretches and the two regions
  (KernelRun for the run, Walk for the contents); the three frames are the generated ones, and the idealization rewrote
  nothing, so there is nothing to preserve.
-/
import proofs.«147501_j3109556322453_1_alg».proof.Defs
import proofs.«147501_j3109556322453_1_alg».proof.Proof.Gen.Kernel
import proofs.«147501_j3109556322453_1_alg».proof.Proof.Gen.Kernel.Skeleton
import proofs.«147501_j3109556322453_1_alg».proof.Proof.Gen.Kernel.Launch
import proofs.«147501_j3109556322453_1_alg».proof.Proof.Gen.Kernel.Points
import proofs.«147501_j3109556322453_1_alg».proof.Proof.Gen.Kernel.Frame
import proofs.«147501_j3109556322453_1_alg».proof.Proof.Gen.KernelIdeal
import proofs.«147501_j3109556322453_1_alg».proof.Proof.Gen.KernelIdeal.Skeleton
import proofs.«147501_j3109556322453_1_alg».proof.Proof.Gen.KernelIdeal.Launch
import proofs.«147501_j3109556322453_1_alg».proof.Proof.Gen.KernelIdeal.Points
import proofs.«147501_j3109556322453_1_alg».proof.Proof.Gen.KernelIdeal.Frame
import proofs.«147501_j3109556322453_1_alg».proof.Proof.Gen.ReferenceIdeal
import proofs.«147501_j3109556322453_1_alg».proof.Proof.Gen.ReferenceIdeal.Run
import proofs.«147501_j3109556322453_1_alg».proof.Proof.Gen.ReferenceIdeal.Read
import proofs.«147501_j3109556322453_1_alg».proof.Proof.Gen.Pre_finite_inputs
import proofs.«147501_j3109556322453_1_alg».proof.Proof.KernelRun
import proofs.«147501_j3109556322453_1_alg».proof.Proof.Walk
import proofs.«147501_j3109556322453_1_alg».proof.Proof.RefValue
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the two-layer function of those arguments in their
    result buffers: the kernel's by following its buffers through the regions, the reference's by composing its operations. -/
theorem algebraic : Cert.algebraic_KernelIdeal_ReferenceIdeal := by
  intro m ρ m' ρ' _ hagree
  refine ⟨_, Cert.KernelIdeal.Launched.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, Cert.KernelIdeal.Walk.result_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
